-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048 : Shape := ⟨1, ![2048]⟩
abbrev S2048x8192 : Shape := ⟨2, ![2048, 8192]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192x2048 .f32) (main_arg6 : FVec F S2048 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S8192x2048 .f32) (main_arg1 : FVec F S2048 .f32) (main_arg2 : FVec F S2048 .f32) (main_arg3 : FVec F S2048x8192 .f32) (main_arg4 : FVec F S8192 .f32) (main_arg5 : FVec F S8192x2048 .f32) (main_arg6 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_arg5 main_arg6 main_v13 main_v16
-- ==== Kernel.lean ====
abbrev S8192x2048 : Shape := ⟨2, ![8192, 2048]⟩
abbrev S2048 : Shape := ⟨1, ![2048]⟩
abbrev S2048x8192 : Shape := ⟨2, ![2048, 8192]⟩
abbrev S8192 : Shape := ⟨1, ![8192]⟩
abbrev S1x2048 : Shape := ⟨2, ![1, 2048]⟩
abbrev S1x8192 : Shape := ⟨2, ![1, 8192]⟩
abbrev S512x2048 : Shape := ⟨2, ![512, 2048]⟩
abbrev S2048x512 : Shape := ⟨2, ![2048, 512]⟩
abbrev S1x512 : Shape := ⟨2, ![1, 512]⟩
abbrev S512 : Shape := ⟨1, ![512]⟩
abbrev S512x1 : Shape := ⟨2, ![512, 1]⟩
abbrev S512x512 : Shape := ⟨2, ![512, 512]⟩

abbrev nBuf : Space → Nat
  | .hbm => 14
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048x8192, .f32⟩
  | .hbm, ⟨4, _⟩ => ⟨S8192, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x8192, .f32⟩
  | .hbm, ⟨10, _⟩ => ⟨S1x2048, .f32⟩
  | .hbm, ⟨11, _⟩ => ⟨S2048x8192, .bf16⟩
  | .hbm, ⟨12, _⟩ => ⟨S8192x2048, .bf16⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S2048_S1x2048 : S2048.ShapeCasts S1x2048
  shapeCasts_S8192_S1x8192 : S8192.ShapeCasts S1x8192
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S512x2048_S512x2048 : S512x2048.ShapeCasts S512x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x8192.size a
  hwx0_3 : ∀ i : grid0.Coords, EltTy.bits .bf16 = 32 ∨ (Rect.block (s := S2048x8192) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .bf16 = 32 ∨ (Rect.block (s := S8192x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S8192x2048.size a
  hwx0_7 : ∀ i : grid0.Coords, EltTy.bits .f32 = 32 ∨ (Rect.block (s := S8192x2048) S512x2048.size (cc0_transform_7 i) (hinb0_7 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048 : Shape := ⟨1, ![2048]⟩
abbrev S2048x8192 : Shape := ⟨2, ![2048, 8192]⟩
abbrev S8192 : Shape := ⟨1, ![8192]⟩
abbrev S_ : Shape := ⟨0, ![]⟩
abbrev S8192x1 : Shape := ⟨2, ![8192, 1]⟩
abbrev S1x2048 : Shape := ⟨2, ![1, 2048]⟩
abbrev S8192x8192 : Shape := ⟨2, ![8192, 8192]⟩
abbrev S1x8192 : Shape := ⟨2, ![1, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048x8192, .f32⟩
  | .hbm, ⟨4, _⟩ => ⟨S8192, .f32⟩
  | .hbm, ⟨5, _⟩ => ⟨S8192x2048, .f32⟩
  | .hbm, ⟨6, _⟩ => ⟨S2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x8192, .f32⟩
  | .hbm, ⟨37, _⟩ => ⟨S1x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S8192x2048, .f32⟩
  | .hbm, ⟨58, _⟩ => ⟨S1x2048, .f32⟩
  | .hbm, ⟨59, _⟩ => ⟨S8192x2048, .f32⟩
  | .hbm, ⟨60, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x2048_S2048x8192_S8192x8192_1_0_0_1_n_n_wf : DotDims.WF S8192x2048 S2048x8192 S8192x8192 [1] [0] [0] [1] [] []
  dot_S8192x8192_S8192x2048_S8192x2048_1_0_0_1_n_n_wf : DotDims.WF S8192x8192 S8192x2048 S8192x2048 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf
def dot_S8192x8192_S8192x2048_S8192x2048_1_0_0_1_n_n : DotDims S8192x8192 S8192x2048 S8192x2048 where
  lhsContracting := [1]
  rhsContracting := [0]
  lhsNonContracting := [0]
  rhsNonContracting := [1]
  lhsBatch := []
  rhsBatch := []
  wf := dot_S8192x8192_S8192x2048_S8192x2048_1_0_0_1_n_n_wf

class Facts : Prop extends Facts₀ where

variable [Facts]
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.Spec.lean ====
/-
  The function both programs compute, entry by entry, on the extended reals.

  For a row x of 2048 numbers: its mean is the row sum divided by 2048, its variance the mean of the squared
  deviations, and the normalised row is (x - mean) · rsqrt(variance + ε) · γ + β. A hidden unit is the inner product
  of the normalised row with a column of the first weight matrix, plus that unit's bias. The activation is the tanh
  form of GELU, h · (1/2 · (1 + tanh(s · (h + c · h³)))) with the cube taken as h · (h · h). An output entry is the
  inner product, over all 8192 hidden units, of the activations with a column of the second weight matrix, plus the
  output bias.

  Comparing a sum over 8192 hidden units with sixteen consecutive partial sums of 512 needs only associativity of
  addition, which holds on the extended reals without any finiteness.
-/
import Idealize.ShloMosaic.PureOps.Ideal.Laws
import Idealize.ShloMosaic.Lib.ValueIdx

noncomputable section

open scoped BigOperators

namespace Cert.Mlp

open Idealize.ShloMosaic

/-- The mean of a row: its sum divided by 2048. -/
def rowMean (x : Fin 2048 → EReal) : EReal :=
  Ideal.div (∑ d : Fin 2048, x d) (Ideal.ofBits .f32 0x45000000#32)

/-- The variance of a row: the mean of the squared deviations from the row's mean. -/
def rowVar (x : Fin 2048 → EReal) : EReal :=
  Ideal.div (∑ d : Fin 2048, (x d - rowMean x) * (x d - rowMean x)) (Ideal.ofBits .f32 0x45000000#32)

/-- The normalised row: deviation times the reciprocal square root of variance plus ε, scaled by γ and shifted by β. -/
def normed (x g b : Fin 2048 → EReal) (d : Fin 2048) : EReal :=
  (x d - rowMean x) * Ideal.rsqrt (rowVar x + Ideal.ofBits .f32 0x3A83126F#32) * g d + b d

/-- One hidden unit: the normalised row against a weight column, plus the unit's bias. -/
def hidden (x g b w : Fin 2048 → EReal) (bias : EReal) : EReal :=
  (∑ d : Fin 2048, normed x g b d * w d) + bias

/-- The tanh form of GELU, given h and a second argument that stands for h · h. -/
def geluOf (h hh : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * hh)))))

/-- The tanh form of GELU. -/
def gelu (h : EReal) : EReal := geluOf h (h * h)

/-- One output entry: activations of all 8192 hidden units against a column of the second weights, plus the output bias. -/
def outEntry (x g b : Fin 2048 → EReal) (W1 : Fin 2048 → Fin 8192 → EReal) (b1 : Fin 8192 → EReal)
    (W2 : Fin 8192 → EReal) (b2 : EReal) : EReal :=
  (∑ f : Fin 8192, gelu (hidden x g b (fun d => W1 d f) (b1 f)) * W2 f) + b2

/-- The whole result, entry (r, e), as a function of the seven argument arrays: the input, the scale and shift vectors,
    the first weights and bias, the second weights and bias. -/
def result (X : (⟨2, ![8192, 2048]⟩ : Shape).Idx → EReal) (g b : (⟨1, ![2048]⟩ : Shape).Idx → EReal)
    (W1 : (⟨2, ![2048, 8192]⟩ : Shape).Idx → EReal) (b1 : (⟨1, ![8192]⟩ : Shape).Idx → EReal)
    (W2 : (⟨2, ![8192, 2048]⟩ : Shape).Idx → EReal) (b2 : (⟨1, ![2048]⟩ : Shape).Idx → EReal) :
    (⟨2, ![8192, 2048]⟩ : Shape).Idx → EReal := fun i =>
  outEntry (fun d => X (ValueIdx.ix2 (i 0) d)) (fun d => g (ValueIdx.ix1 d)) (fun d => b (ValueIdx.ix1 d))
    (fun d f => W1 (ValueIdx.ix2 d f)) (fun f => b1 (ValueIdx.ix1 f)) (fun f => W2 (ValueIdx.ix2 f (i 1)))
    (b2 (ValueIdx.ix1 (i 1)))

end Cert.Mlp

end
-- ==== Proof.LibBlockSum.lean ====
/-
  Readings at an index and a regrouping of sums, for any sizes.

  * A vector of length a given a trailing unit axis, [a] to [a, 1], read at (i, u): the vector at i.
  * A column [a, 1] broadcast along rows to [a, b], read at (p, c): the column's entry p.
  * A sum over a range of length B·K is the sum of K consecutive block sums of length B; the same with the inner sums
    and the total indexed by Fin, for a function on Fin (B·K) extended arbitrarily past its range. This is
    associativity of addition only, so it holds in any commutative additive monoid, the extended reals included.
-/
import Idealize.ShloMosaic.Lib.ValueIdx
import Idealize.ShloMosaic.Lib.Pipeline.Value

noncomputable section

open scoped BigOperators

namespace Cert.LibBlockSum

open Idealize.ShloMosaic Idealize.ShloMosaic.ValueIdx

/-- A vector of length a given a trailing unit axis reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along rows reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over a range of length B·K is the sum of K consecutive block sums of length B. -/
theorem sum_range_blocks {M : Type*} [AddCommMonoid M] (a : ℕ → M) (B : ℕ) :
    ∀ K : ℕ, ∑ s ∈ Finset.range K, ∑ q ∈ Finset.range B, a (B * s + q) = ∑ f ∈ Finset.range (B * K), a f
  | 0 => by simp
  | K + 1 => by
    rw [Finset.sum_range_succ, sum_range_blocks a B K, Nat.mul_succ, Finset.sum_range_add]

/-- The same with the inner sums and the total sum indexed by Fin: a function on Fin (B·K), extended by anything
    beyond its range, summed block by block. -/
theorem sum_fin_blocks {M : Type*} [AddCommMonoid M] (B K N : ℕ) (hN : N = B * K) (a : Fin N → M) (z : M) :
    ∑ s ∈ Finset.range K, ∑ q : Fin B, (if h : B * s + q.val < N then a ⟨B * s + q.val, h⟩ else z)
      = ∑ f : Fin N, a f := by
  subst hN
  let a' : ℕ → M := fun n => if h : n < B * K then a ⟨n, h⟩ else z
  calc ∑ s ∈ Finset.range K, ∑ q : Fin B, (if h : B * s + q.val < B * K then a ⟨B * s + q.val, h⟩ else z)
      = ∑ s ∈ Finset.range K, ∑ q ∈ Finset.range B, a' (B * s + q) :=
        Finset.sum_congr rfl fun s _ => Fin.sum_univ_eq_sum_range (fun q => a' (B * s + q)) B
    _ = ∑ f ∈ Finset.range (B * K), a' f := sum_range_blocks a' B K
    _ = ∑ f : Fin (B * K), a' f.val := (Fin.sum_univ_eq_sum_range a' (B * K)).symm
    _ = ∑ f : Fin (B * K), a f := Finset.sum_congr rfl fun f _ => dif_pos f.isLt

end Cert.LibBlockSum

end
-- ==== Proof.KernelPay.lean ====
/-
  What the kernel's body computes at one grid point, entry by entry, on the extended reals.

  The body's first stretch, on a block of 512 rows and a block of 512 hidden units, normalises each row over its 2048
  entries and takes the inner product with a weight column, plus the unit's bias: entry (p, q) is one hidden unit of
  row p. Its square is kept beside it. The second stretch applies the activation to every hidden unit of the block,
  takes the inner product with a column of the second weights over the block's 512 units, and adds that to what the
  output buffer held: entry (p, e) of the buffer gains the block's partial sum. The closing stretch adds the output bias
  row, and the opening one stores zeros.
-/
import proofs.«137366_j79671643341681_1_alg».proof.Proof.Gen.KernelIdeal.Skeleton
import proofs.«137366_j79671643341681_1_alg».proof.Proof.LibOuterDot
import proofs.«137366_j79671643341681_1_alg».proof.Proof.Spec
import proofs.«137366_j79671643341681_1_alg».proof.Proof.LibBlockSum
import Idealize.ShloMosaic.Lib.ValueLayout

noncomputable section

open scoped BigOperators

namespace Cert.KernelIdeal.Pay

open Cert.KernelIdeal Cert.KernelIdeal.Gen Idealize.ShloMosaic Idealize.ShloMosaic.ValueIdx Cert.Mlp Cert.LibBlockSum

/-- The sum along each row of a block of 512 rows of 2048 entries, read at row p. -/
theorem rowSum_apply (src : FVec Ideal S512x2048 .f32) (acc : BitVec (FTy.bits .f32)) (h : S512x2048.Reduces [1] S512)
    (hφ : FKind.Formats .f32) (hacc : acc = FKind.add.neutral .f32 hφ) (p : Fin 512) :
    multiReduction .add [1] S512 src acc h hφ hacc (ix1 p) = ∑ k : Fin 2048, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- The first stretch at (p, q): the hidden unit of row p against column q of the weight block. -/
theorem pay4_apply (x0 : Vec Ideal S512x2048 .f32) (x1 x2 : Vec Ideal S1x2048 .f32) (x3 : Vec Ideal S2048x512 .bf16)
    (x4 : Vec Ideal S1x512 .f32) (p q : Fin 512) :
    k0_pay4 (F := Ideal) x0 x1 x2 x3 x4 (ix2 p q)
      = hidden (fun d => x0 (ix2 p d)) (fun d => x1 (ix2 (0 : Fin 1) d)) (fun d => x2 (ix2 (0 : Fin 1) d))
          (fun d => x3 (ix2 d q)) (x4 (ix2 (0 : Fin 1) q)) := by
  unfold k0_pay4
  dsimp only
  rw [addf_apply, Cert.LibOuterDot.matmul_zero_ix2 _ rfl rfl rfl rfl rfl rfl rfl rfl]
  simp only [truncf_apply, addf_apply, mulf_apply, subf_apply, divf_apply, broadcast_apply,
    broadcastTo_a1_ab_apply, broadcastTo_1b_ab_apply, shapeCast_self, shapeCast_a_a1_apply, rsqrt,
    Ideal.rsqrt_def, Ideal.ofBits_def, Cert.Mlp.hidden, normed, rowMean, rowVar]
  erw [rowSum_apply, rowSum_apply]
  simp only [mulf_apply, subf_apply, divf_apply, broadcast_apply, broadcastTo_a1_ab_apply, shapeCast_a_a1_apply,
    Ideal.ofBits_def]
  erw [rowSum_apply]

/-- The square kept beside the first stretch. -/
theorem pay5_apply (x0 : Vec Ideal S512x2048 .f32) (x1 x2 : Vec Ideal S1x2048 .f32) (x3 : Vec Ideal S2048x512 .bf16)
    (x4 : Vec Ideal S1x512 .f32) (j : S512x512.Idx) :
    k0_pay5 (F := Ideal) x0 x1 x2 x3 x4 j = k0_pay4 (F := Ideal) x0 x1 x2 x3 x4 j * k0_pay4 (F := Ideal) x0 x1 x2 x3 x4 j :=
  rfl

/-- The second stretch at (p, e): what the buffer held, plus the block's partial sum of activations against column e
    of the second weights' block. -/
theorem pay1_apply (v37 v38 : FVec Ideal S512x512 .f32) (x5 : Vec Ideal S512x2048 .bf16) (acc : Vec Ideal S512x2048 .f32)
    (p : Fin 512) (e : Fin 2048) :
    k0_pay1 (F := Ideal) v37 v38 x5 acc (ix2 p e)
      = acc (ix2 p e) + ∑ q : Fin 512, geluOf (v37 (ix2 p q)) (v38 (ix2 p q)) * x5 (ix2 q e) := by
  unfold k0_pay1
  rw [addf_apply, shapeCast_self, Cert.LibOuterDot.matmul_zero_ix2 _ rfl rfl rfl rfl rfl rfl rfl rfl]
  simp only [shapeCast_self, truncf_apply, addf_apply, mulf_apply, broadcast_apply, tanh, Ideal.tanh_def,
    Ideal.ofBits_def, geluOf]

/-- The closing stretch at (p, e): what the buffer held plus the bias row's entry e. -/
theorem pay2_apply (acc : Vec Ideal S512x2048 .f32) (x6 : Vec Ideal S1x2048 .f32) (p : Fin 512) (e : Fin 2048) :
    k0_pay2 (F := Ideal) acc x6 (ix2 p e) = acc (ix2 p e) + x6 (ix2 (0 : Fin 1) e) := by
  unfold k0_pay2
  rw [addf_apply, shapeCast_self, broadcastTo_1b_ab_apply, shapeCast_self]

/-- The opening stretch stores zeros. -/
theorem pay3_apply (j : S512x2048.Idx) : k0_pay3 (F := Ideal) j = 0 := by
  unfold k0_pay3
  rw [broadcast_apply]
  exact Ideal.ofBits_zero_f32

end Cert.KernelIdeal.Pay

end
-- ==== Proof.KernelBlocks.lean ====
/-
  Which entries of the argument arrays a grid point's blocks hold.

  The grid has 16 x 16 points, numbered row-major: point t works on row block t / 16 and hidden block t % 16. Its
  block of the input holds rows 512·(t / 16) + p; its block of the first weights holds columns 512·(t % 16) + q, its
  block of the first bias the same entries, and its block of the second weights rows 512·(t % 16) + q. The scale,
  shift and output bias rows are the whole vectors, given a leading unit axis before the call; the two weight
  matrices pass through a change of float format, which is the identity on the extended reals.
-/
import proofs.«137366_j79671643341681_1_alg».proof.Proof.Gen.KernelIdeal.Frame
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps over the grid: which block of each array point t stages. -/
theorem idx_facts : ∀ t : Fin cfg0.N,
    win0_0.index t (0 : Fin 2) = t.val / 16 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val % 16
    ∧ win0_4.index t (0 : Fin 2) = 0 ∧ win0_4.index t (1 : Fin 2) = t.val % 16
    ∧ win0_5.index t (0 : Fin 2) = t.val % 16 ∧ win0_5.index t (1 : Fin 2) = 0
    ∧ win0_6.index t (0 : Fin 2) = 0 ∧ win0_6.index t (1 : Fin 2) = 0 :=
  (by decide +kernel : ∀ t : Fin grid0.N, _)

theorem N_eq : cfg0.N = 256 := N_0

/-- A global row or hidden-unit number built from a block number below 16 and a place below 512. -/
def glob (b : ℕ) (hb : b < 16) (p : Fin 512) : Fin 8192 := ⟨512 * b + p.val, by have := p.isLt; omega⟩

theorem val_lt (t : Fin cfg0.N) : t.val < 256 := lt_of_lt_of_eq t.isLt N_eq
theorem div_lt (t : Fin cfg0.N) : t.val / 16 < 16 := by have h := val_lt t; omega
theorem mod_lt (t : Fin cfg0.N) : t.val % 16 < 16 := Nat.mod_lt _ (by decide)

/-! ## The arrays the region finds -/

theorem V_v0 (c : Dev nD) :
    (V m c main_v0 : S1x2048.Idx → EReal) = shapeCast S1x2048 (m ((c : Thread nD τ).loc main_arg1)) shapeCasts_S2048_S1x2048 := by
  dsimp only [V, hostOps0]; after_results; rfl

theorem V_v1 (c : Dev nD) :
    (V m c main_v1 : S1x2048.Idx → EReal) = shapeCast S1x2048 (m ((c : Thread nD τ).loc main_arg2)) shapeCasts_S2048_S1x2048 := by
  dsimp only [V, hostOps0]; after_results; rfl

theorem V_v2 (c : Dev nD) :
    (V m c main_v2 : S1x8192.Idx → EReal) = shapeCast S1x8192 (m ((c : Thread nD τ).loc main_arg4)) shapeCasts_S8192_S1x8192 := by
  dsimp only [V, hostOps0]; after_results; rfl

theorem V_v3 (c : Dev nD) :
    (V m c main_v3 : S1x2048.Idx → EReal) = shapeCast S1x2048 (m ((c : Thread nD τ).loc main_arg6)) shapeCasts_S2048_S1x2048 := by
  dsimp only [V, hostOps0]; after_results; rfl

theorem V_v4 (c : Dev nD) :
    (V m c main_v4 : S2048x8192.Idx → EReal) = (m ((c : Thread nD τ).loc main_arg3) : S2048x8192.Idx → EReal) := by
  dsimp only [V, hostOps0]; after_results; rfl

theorem V_v5 (c : Dev nD) :
    (V m c main_v5 : S8192x2048.Idx → EReal) = (m ((c : Thread nD τ).loc main_arg5) : S8192x2048.Idx → EReal) := by
  dsimp only [V, hostOps0]; after_results; rfl

/-! ## The blocks at a point, entry by entry -/

/-- The input block of point t holds rows 512·(t / 16) + p of the input. -/
theorem blk0_apply (c : Dev nD) (t : Fin cfg0.N) (p : Fin 512) (d : Fin 2048) :
    (iblk m c 0 t : S512x2048.Idx → EReal) (ix2 p d)
      = ((m ((c : Thread nD τ).loc main_arg0)) : S8192x2048.Idx → EReal) (ix2 (glob (t.val / 16) (div_lt t) p) d) := by
  obtain ⟨e00, e01, -⟩ := idx_facts t
  refine (?_ : _ = V m c main_arg0 (ix2 (glob (t.val / 16) (div_lt t) p) d)).trans ?_
  · show V m c main_arg0 (((cfg0.win 0).blk t).view.emb (ix2 p d)) = _
    refine congrArg (V m c main_arg0) (funext fun a => Fin.ext ?_)
    match a with
    | ⟨0, _⟩ =>
      show win0_0.index t (0 : Fin 2) * 512 + 1 * p.val = 512 * (t.val / 16) + p.val
      rw [e00]; omega
    | ⟨1, _⟩ =>
      show win0_0.index t (1 : Fin 2) * 2048 + 1 * d.val = d.val
      rw [e01]; omega
  · exact congrFun (V_main_arg0 m c) _

/-- The scale row is the whole scale vector. -/
theorem blk1_apply (c : Dev nD) (t : Fin cfg0.N) (d : Fin 2048) :
    (iblk m c 1 t : S1x2048.Idx → EReal) (ix2 (0 : Fin 1) d)
      = ((m ((c : Thread nD τ).loc main_arg1)) : S2048.Idx → EReal) (ix1 d) := by
  obtain ⟨-, -, e10, e11, -⟩ := idx_facts t
  refine (?_ : _ = V m c main_v0 (ix2 (0 : Fin 1) d)).trans ?_
  · show V m c main_v0 (((cfg0.win 1).blk t).view.emb (ix2 (0 : Fin 1) d)) = _
    refine congrArg (V m c main_v0) (funext fun a => Fin.ext ?_)
    match a with
    | ⟨0, _⟩ =>
      show win0_1.index t (0 : Fin 2) * 1 + 1 * (0 : Fin 1).val = (0 : Fin 1).val
      rw [e10]; rfl
    | ⟨1, _⟩ =>
      show win0_1.index t (1 : Fin 2) * 2048 + 1 * d.val = d.val
      rw [e11]; omega
  · rw [V_v0]; exact shapeCast_a_1a_apply _ _ 0 d

/-- The shift row is the whole shift vector. -/
theorem blk2_apply (c : Dev nD) (t : Fin cfg0.N) (d : Fin 2048) :
    (iblk m c 2 t : S1x2048.Idx → EReal) (ix2 (0 : Fin 1) d)
      = ((m ((c : Thread nD τ).loc main_arg2)) : S2048.Idx → EReal) (ix1 d) := by
  obtain ⟨-, -, -, -, e20, e21, -⟩ := idx_facts t
  refine (?_ : _ = V m c main_v1 (ix2 (0 : Fin 1) d)).trans ?_
  · show V m c main_v1 (((cfg0.win 2).blk t).view.emb (ix2 (0 : Fin 1) d)) = _
    refine congrArg (V m c main_v1) (funext fun a => Fin.ext ?_)
    match a with
    | ⟨0, _⟩ =>
      show win0_2.index t (0 : Fin 2) * 1 + 1 * (0 : Fin 1).val = (0 : Fin 1).val
      rw [e20]; rfl
    | ⟨1, _⟩ =>
      show win0_2.index t (1 : Fin 2) * 2048 + 1 * d.val = d.val
      rw [e21]; omega
  · rw [V_v1]; exact shapeCast_a_1a_apply _ _ 0 d

/-- The first weights' block of point t holds columns 512·(t % 16) + q. -/
theorem blk3_apply (c : Dev nD) (t : Fin cfg0.N) (d : Fin 2048) (q : Fin 512) :
    (iblk m c 3 t : S2048x512.Idx → EReal) (ix2 d q)
      = ((m ((c : Thread nD τ).loc main_arg3)) : S2048x8192.Idx → EReal) (ix2 d (glob (t.val % 16) (mod_lt t) q)) := by
  obtain ⟨-, -, -, -, -, -, e30, e31, -⟩ := idx_facts t
  refine (?_ : _ = V m c main_v4 (ix2 d (glob (t.val % 16) (mod_lt t) q))).trans ?_
  · show V m c main_v4 (((cfg0.win 3).blk t).view.emb (ix2 d q)) = _
    refine congrArg (V m c main_v4) (funext fun a => Fin.ext ?_)
    match a with
    | ⟨0, _⟩ =>
      show win0_3.index t (0 : Fin 2) * 2048 + 1 * d.val = d.val
      rw [e30]; omega
    | ⟨1, _⟩ =>
      show win0_3.index t (1 : Fin 2) * 512 + 1 * q.val = 512 * (t.val % 16) + q.val
      rw [e31]; omega
  · rw [V_v4]

/-- The first bias block of point t holds entries 512·(t % 16) + q. -/
theorem blk4_apply (c : Dev nD) (t : Fin cfg0.N) (q : Fin 512) :
    (iblk m c 4 t : S1x512.Idx → EReal) (ix2 (0 : Fin 1) q)
      = ((m ((c : Thread nD τ).loc main_arg4)) : S8192.Idx → EReal) (ix1 (glob (t.val % 16) (mod_lt t) q)) := by
  obtain ⟨-, -, -, -, -, -, -, -, e40, e41, -⟩ := idx_facts t
  refine (?_ : _ = V m c main_v2 (ix2 (0 : Fin 1) (glob (t.val % 16) (mod_lt t) q))).trans ?_
  · show V m c main_v2 (((cfg0.win 4).blk t).view.emb (ix2 (0 : Fin 1) q)) = _
    refine congrArg (V m c main_v2) (funext fun a => Fin.ext ?_)
    match a with
    | ⟨0, _⟩ =>
      show win0_4.index t (0 : Fin 2) * 1 + 1 * (0 : Fin 1).val = (0 : Fin 1).val
      rw [e40]; rfl
    | ⟨1, _⟩ =>
      show win0_4.index t (1 : Fin 2) * 512 + 1 * q.val = 512 * (t.val % 16) + q.val
      rw [e41]; omega
  · rw [V_v2]; exact shapeCast_a_1a_apply _ _ 0 _

/-- The second weights' block of point t holds rows 512·(t % 16) + q. -/
theorem blk5_apply (c : Dev nD) (t : Fin cfg0.N) (q : Fin 512) (e : Fin 2048) :
    (iblk m c 5 t : S512x2048.Idx → EReal) (ix2 q e)
      = ((m ((c : Thread nD τ).loc main_arg5)) : S8192x2048.Idx → EReal) (ix2 (glob (t.val % 16) (mod_lt t) q) e) := by
  obtain ⟨-, -, -, -, -, -, -, -, -, -, e50, e51, -⟩ := idx_facts t
  refine (?_ : _ = V m c main_v5 (ix2 (glob (t.val % 16) (mod_lt t) q) e)).trans ?_
  · show V m c main_v5 (((cfg0.win 5).blk t).view.emb (ix2 q e)) = _
    refine congrArg (V m c main_v5) (funext fun a => Fin.ext ?_)
    match a with
    | ⟨0, _⟩ =>
      show win0_5.index t (0 : Fin 2) * 512 + 1 * q.val = 512 * (t.val % 16) + q.val
      rw [e50]; omega
    | ⟨1, _⟩ =>
      show win0_5.index t (1 : Fin 2) * 2048 + 1 * e.val = e.val
      rw [e51]; omega
  · rw [V_v5]

/-- The output bias row is the whole output bias vector. -/
theorem blk6_apply (c : Dev nD) (t : Fin cfg0.N) (e : Fin 2048) :
    (iblk m c 6 t : S1x2048.Idx → EReal) (ix2 (0 : Fin 1) e)
      = ((m ((c : Thread nD τ).loc main_arg6)) : S2048.Idx → EReal) (ix1 e) := by
  obtain ⟨-, -, -, -, -, -, -, -, -, -, -, -, e60, e61⟩ := idx_facts t
  refine (?_ : _ = V m c main_v3 (ix2 (0 : Fin 1) e)).trans ?_
  · show V m c main_v3 (((cfg0.win 6).blk t).view.emb (ix2 (0 : Fin 1) e)) = _
    refine congrArg (V m c main_v3) (funext fun a => Fin.ext ?_)
    match a with
    | ⟨0, _⟩ =>
      show win0_6.index t (0 : Fin 2) * 1 + 1 * (0 : Fin 1).val = (0 : Fin 1).val
      rw [e60]; rfl
    | ⟨1, _⟩ =>
      show win0_6.index t (1 : Fin 2) * 2048 + 1 * e.val = e.val
      rw [e61]; omega
  · rw [V_v3]; exact shapeCast_a_1a_apply _ _ 0 e

end Cert.KernelIdeal.Blocks

end
-- ==== Proof.KernelValue.lean ====
/-
  The kernel's output array, entry by entry, is the specification's function of the argument arrays.

  The grid runs over 16 row blocks, and inside a row block over 16 hidden blocks. The output buffer of a row block is
  set to zero at the first hidden block, gains at every hidden block s the partial sum over that block's 512 hidden
  units of activation times second weight, and gains the output bias at the last one. So after the sixteenth step entry
  (p, e) of the buffer is zero plus the sum over s < 16 of the partial sums, plus the bias. Each partial sum runs over
  hidden units 512·s + q, and sixteen consecutive blocks of 512 exhaust the 8192 hidden units: the sum of the partial
  sums is the sum over all hidden units, by associativity alone.
-/
import proofs.«137366_j79671643341681_1_alg».proof.Proof.Gen.KernelIdeal.Value
import proofs.«137366_j79671643341681_1_alg».proof.Proof.KernelPay
import proofs.«137366_j79671643341681_1_alg».proof.Proof.KernelBlocks

noncomputable section

open scoped BigOperators

namespace Cert.KernelIdeal.Out

open Cert.KernelIdeal Cert.KernelIdeal.Gen Cert.KernelIdeal.Value Cert.KernelIdeal.Pay Cert.KernelIdeal.Blocks
open Idealize.ShloMosaic Idealize.ShloMosaic.TcCoe Idealize.SL.Sem Idealize.ShloMosaic.ValueIdx Cert.Mlp
open Idealize.ShloMosaic.Pipeline (accAt accAt_succ accAt_add_apply)

variable (m : (ℓ : Loc nD τ sig) → Buf (Elt Ideal) ℓ)

/-! ## The argument arrays -/

abbrev aX (c : Dev nD) : S8192x2048.Idx → EReal := m ((c : Thread nD τ).loc main_arg0)
abbrev aG (c : Dev nD) : S2048.Idx → EReal := m ((c : Thread nD τ).loc main_arg1)
abbrev aB (c : Dev nD) : S2048.Idx → EReal := m ((c : Thread nD τ).loc main_arg2)
abbrev aW1 (c : Dev nD) : S2048x8192.Idx → EReal := m ((c : Thread nD τ).loc main_arg3)
abbrev aB1 (c : Dev nD) : S8192.Idx → EReal := m ((c : Thread nD τ).loc main_arg4)
abbrev aW2 (c : Dev nD) : S8192x2048.Idx → EReal := m ((c : Thread nD τ).loc main_arg5)
abbrev aB2 (c : Dev nD) : S2048.Idx → EReal := m ((c : Thread nD τ).loc main_arg6)

/-- One term of output entry (r, e): the activation of hidden unit f of row r times entry (f, e) of the second weights. -/
def term (c : Dev nD) (r : Fin 8192) (e : Fin 2048) (f : Fin 8192) : EReal :=
  gelu (hidden (fun d => aX m c (ix2 r d)) (fun d => aG m c (ix1 d)) (fun d => aB m c (ix1 d))
    (fun d => aW1 m c (ix2 d f)) (aB1 m c (ix1 f))) * aW2 m c (ix2 f e)

/-- An output entry is the sum of its 8192 terms plus the output bias. -/
theorem result_apply (c : Dev nD) (r : Fin 8192) (e : Fin 2048) :
    result (aX m c) (aG m c) (aB m c) (aW1 m c) (aB1 m c) (aW2 m c) (aB2 m c) (ix2 r e) = (∑ f : Fin 8192, term m c r e f) + aB2 m c (ix1 e) := rfl

/-- The same term, with the row and the hidden unit given by equal block numbers. -/
theorem term_glob (c : Dev nD) (b b' s s' : ℕ) (hb : b < 16) (hb' : b' < 16) (hs : s < 16) (hs' : s' < 16)
    (hbb : b = b') (hss : s = s') (p : Fin 512) (e : Fin 2048) (q : Fin 512) :
    term m c (glob b hb p) e (glob s hs q) = term m c (glob b' hb' p) e (glob s' hs' q) := by
  subst hbb; subst hss; rfl

/-! ## One grid point's addend -/

/-- What point n adds to place (p, e) of the output buffer: over the point's 512 hidden units, activation times second
    weight, in terms of the point's blocks. Zero past the grid, where it is never used. -/
def addend (c : Dev nD) (n : ℕ) (p : Fin 512) (e : Fin 2048) : EReal :=
  if h : n < cfg0.N then
    ∑ q : Fin 512, geluOf (k0_pay4 (F := Ideal) (iblk m c 0 ⟨n, h⟩) (iblk m c 1 ⟨n, h⟩) (iblk m c 2 ⟨n, h⟩) (iblk m c 3 ⟨n, h⟩) (iblk m c 4 ⟨n, h⟩) (ix2 p q))
        (k0_pay5 (F := Ideal) (iblk m c 0 ⟨n, h⟩) (iblk m c 1 ⟨n, h⟩) (iblk m c 2 ⟨n, h⟩) (iblk m c 3 ⟨n, h⟩) (iblk m c 4 ⟨n, h⟩) (ix2 p q))
      * (iblk m c 5 ⟨n, h⟩ : S512x2048.Idx → EReal) (ix2 q e)
  else 0

theorem addend_pos (c : Dev nD) (n : ℕ) (h : n < cfg0.N) (p : Fin 512) (e : Fin 2048) :
    addend m c n p e = ∑ q : Fin 512, geluOf (k0_pay4 (F := Ideal) (iblk m c 0 ⟨n, h⟩) (iblk m c 1 ⟨n, h⟩) (iblk m c 2 ⟨n, h⟩) (iblk m c 3 ⟨n, h⟩) (iblk m c 4 ⟨n, h⟩) (ix2 p q))
        (k0_pay5 (F := Ideal) (iblk m c 0 ⟨n, h⟩) (iblk m c 1 ⟨n, h⟩) (iblk m c 2 ⟨n, h⟩) (iblk m c 3 ⟨n, h⟩) (iblk m c 4 ⟨n, h⟩) (ix2 p q))
      * (iblk m c 5 ⟨n, h⟩ : S512x2048.Idx → EReal) (ix2 q e) :=
  dif_pos h

/-- The addend of point t, in terms of the argument arrays: the 512 terms of the output entry whose hidden units lie in
    the point's hidden block. -/
theorem addend_at (c : Dev nD) (t : Fin cfg0.N) (p : Fin 512) (e : Fin 2048) :
    addend m c t.val p e
      = ∑ q : Fin 512, term m c (glob (t.val / 16) (div_lt t) p) e (glob (t.val % 16) (mod_lt t) q) := by
  rw [addend_pos m c t.val t.isLt p e]
  refine Finset.sum_congr rfl fun q _ => ?_
  have h4 : k0_pay4 (F := Ideal) (iblk m c 0 t) (iblk m c 1 t) (iblk m c 2 t) (iblk m c 3 t) (iblk m c 4 t) (ix2 p q)
      = hidden (fun d => aX m c (ix2 (glob (t.val / 16) (div_lt t) p) d)) (fun d => aG m c (ix1 d)) (fun d => aB m c (ix1 d))
          (fun d => aW1 m c (ix2 d (glob (t.val % 16) (mod_lt t) q))) (aB1 m c (ix1 (glob (t.val % 16) (mod_lt t) q))) := by
    refine (pay4_apply _ _ _ _ _ p q).trans ?_
    congr 1
    · funext d; exact blk0_apply m c t p d
    · funext d; exact blk1_apply m c t d
    · funext d; exact blk2_apply m c t d
    · funext d; exact blk3_apply m c t d q
    · exact blk4_apply m c t q
  show geluOf (k0_pay4 (F := Ideal) (iblk m c 0 t) (iblk m c 1 t) (iblk m c 2 t) (iblk m c 3 t) (iblk m c 4 t) (ix2 p q))
      (k0_pay4 (F := Ideal) (iblk m c 0 t) (iblk m c 1 t) (iblk m c 2 t) (iblk m c 3 t) (iblk m c 4 t) (ix2 p q) * k0_pay4 (F := Ideal) (iblk m c 0 t) (iblk m c 1 t) (iblk m c 2 t) (iblk m c 3 t) (iblk m c 4 t) (ix2 p q))
      * (iblk m c 5 t : S512x2048.Idx → EReal) (ix2 q e) = _
  rw [h4, blk5_apply m c t q e]
  rfl

/-- The addend of point 16·rb + s, as the terms of hidden units 512·s + q of row 512·rb + p. -/
theorem addend_point (c : Dev nD) (rb s : ℕ) (hrb : rb < 16) (hs : s < 16) (p : Fin 512) (e : Fin 2048) :
    addend m c (16 * rb + s) p e
      = ∑ q : Fin 512, (if h : 512 * s + q.val < 8192 then term m c (glob rb hrb p) e ⟨512 * s + q.val, h⟩ else 0) := by
  have ht : 16 * rb + s < cfg0.N := by rw [N_eq]; omega
  refine (addend_at m c ⟨16 * rb + s, ht⟩ p e).trans (Finset.sum_congr rfl fun q _ => ?_)
  have hq : 512 * s + q.val < 8192 := by have := q.isLt; omega
  rw [dif_pos hq]
  exact term_glob m c _ rb _ s _ hrb _ hs (by show (16 * rb + s) / 16 = rb; omega) (by show (16 * rb + s) % 16 = s; omega) p e q

/-! ## The fold over a row block's sixteen points -/

/-- The first point of a row block leaves zero plus its addend. -/
theorem reset_apply (c : Dev nD) (b : ℕ) (h : b < cfg0.N) (y : S512x2048.Idx) :
    reset7 m c b h y = (fun _ : S512x2048.Idx => (0 : EReal)) y + (fun n (y : S512x2048.Idx) => addend m c n (y 0) (y 1)) b y := by
  obtain ⟨p, e, rfl⟩ : ∃ (p : Fin 512) (e : Fin 2048), y = ix2 p e := ⟨y 0, y 1, eq_ix2 y⟩
  show reset7 m c b h (ix2 p e) = 0 + addend m c b p e
  rw [addend_pos m c b h p e]
  unfold reset7
  refine (pay1_apply _ _ _ _ p e).trans ?_
  exact congrArg (· + _) (pay3_apply _)

/-- Each of the next fourteen points adds its addend to what the point before left. -/
theorem step_apply (c : Dev nD) (rb n : ℕ) (h : n < cfg0.N) (acc : S512x2048.Idx → EReal) (y : S512x2048.Idx)
    (h1 : 16 * rb < n) (h2 : n ≤ 16 * rb + 14) :
    step7 m c n h acc y = acc y + (fun n (y : S512x2048.Idx) => addend m c n (y 0) (y 1)) n y := by
  obtain ⟨p, e, rfl⟩ : ∃ (p : Fin 512) (e : Fin 2048), y = ix2 p e := ⟨y 0, y 1, eq_ix2 y⟩
  show step7 m c n h acc (ix2 p e) = acc (ix2 p e) + addend m c n p e
  rw [addend_pos m c n h p e]
  unfold step7
  rw [if_pos (by omega)]
  exact pay1_apply _ _ _ acc p e

/-- After fifteen points the buffer holds zero plus the fifteen addends. -/
theorem fold14_apply (c : Dev nD) (rb : ℕ) (h : 16 * rb + 14 < cfg0.N) (p : Fin 512) (e : Fin 2048) :
    accAt (reset7 m c) (step7 m c) (16 * rb) 14 h (ix2 p e) = 0 + ∑ s ∈ Finset.range 15, addend m c (16 * rb + s) p e :=
  accAt_add_apply (reset7 m c) (step7 m c) (fun _ => 0) (fun n (y : S512x2048.Idx) => addend m c n (y 0) (y 1)) (16 * rb) 14
    (fun hb y => reset_apply m c (16 * rb) hb y)
    (fun n hn acc y h1 h2 => step_apply m c rb n hn acc y h1 h2)
    14 le_rfl h (ix2 p e)

/-- At the last point of a row block the step adds the point's addend and then the output bias row. -/
theorem step_last (c : Dev nD) (n : ℕ) (h : n < cfg0.N) (acc : Vec Ideal S512x2048 .f32) (h0 : ¬n % 16 = 0) (h15 : n % 16 = 15) :
    step7 m c n h acc
      = k0_pay2 (k0_pay1 (k0_pay4 (iblk m c 0 ⟨n, h⟩) (iblk m c 1 ⟨n, h⟩) (iblk m c 2 ⟨n, h⟩) (iblk m c 3 ⟨n, h⟩) (iblk m c 4 ⟨n, h⟩)) (k0_pay5 (iblk m c 0 ⟨n, h⟩) (iblk m c 1 ⟨n, h⟩) (iblk m c 2 ⟨n, h⟩) (iblk m c 3 ⟨n, h⟩) (iblk m c 4 ⟨n, h⟩)) (iblk m c 5 ⟨n, h⟩) acc) (iblk m c 6 ⟨n, h⟩) := by
  unfold step7
  rw [if_neg (by omega), if_pos ⟨h0, h15⟩]

/-- After the sixteenth point the buffer holds zero plus the sixteen addends, plus the output bias. -/
theorem fold15_apply (c : Dev nD) (rb : ℕ) (h : 16 * rb + 15 < cfg0.N) (p : Fin 512) (e : Fin 2048) :
    accAt (reset7 m c) (step7 m c) (16 * rb) 15 h (ix2 p e)
      = (0 + ∑ s ∈ Finset.range 16, addend m c (16 * rb + s) p e)
        + (iblk m c 6 ⟨16 * rb + 15, h⟩ : S1x2048.Idx → EReal) (ix2 (0 : Fin 1) e) := by
  refine (congrFun (accAt_succ (reset7 m c) (step7 m c) (16 * rb) 14 h) (ix2 p e)).trans ?_
  show step7 m c (16 * rb + 15) h (accAt (reset7 m c) (step7 m c) (16 * rb) 14 (Nat.lt_of_succ_lt h)) (ix2 p e) = _
  rw [step_last m c (16 * rb + 15) h _ (by omega) (by omega)]
  refine (pay2_apply _ _ p e).trans ?_
  refine congrArg (· + _) ?_
  refine (pay1_apply _ _ _ _ p e).trans ?_
  rw [fold14_apply m c rb (Nat.lt_of_succ_lt h) p e, Finset.sum_range_succ _ 15, add_assoc,
    addend_pos m c (16 * rb + 15) h p e]

/-! ## The output array -/

/-- Entry (512·rb + p, e) of the output array after the run. -/
theorem G7_apply (c : Dev nD) (rb : ℕ) (hrb : rb < 16) (p : Fin 512) (e : Fin 2048) :
    (G7 m c : S8192x2048.Idx → EReal) (ix2 (glob rb hrb p) e) = result (aX m c) (aG m c) (aB m c) (aW1 m c) (aB1 m c) (aW2 m c) (aB2 m c) (ix2 (glob rb hrb p) e) := by
  have h15 : 16 * rb + 15 < cfg0.N := by rw [N_eq]; omega
  have hrun : run7Of (ix2 (glob rb hrb p) e) = rb := by
    show 1 * ((512 * rb + p.val) / 512 - 0) + 1 * (e.val / 2048 - 0) = rb
    have := p.isLt; have := e.isLt; omega
  have hloc : loc7Of (ix2 (glob rb hrb p) e) = ix2 p e := by
    funext a; apply Fin.ext
    match a with
    | ⟨0, _⟩ => show (512 * rb + p.val) % 512 = p.val; have := p.isLt; omega
    | ⟨1, _⟩ => show e.val % 2048 = e.val; have := e.isLt; omega
  have key : ∀ (b : ℕ) (hb : b + 15 < cfg0.N), b = 16 * rb →
      accAt (reset7 m c) (step7 m c) b 15 hb (ix2 p e) = result (aX m c) (aG m c) (aB m c) (aW1 m c) (aB1 m c) (aW2 m c) (aB2 m c) (ix2 (glob rb hrb p) e) := by
    intro b hb hbe; subst hbe
    rw [fold15_apply m c rb hb p e, blk6_apply m c ⟨16 * rb + 15, hb⟩ e,
      Finset.sum_congr rfl (fun s hs => addend_point m c rb s hrb (Finset.mem_range.mp hs) p e),
      Cert.LibBlockSum.sum_fin_blocks 512 16 8192 rfl (term m c (glob rb hrb p) e) 0, zero_add]
    rfl
  unfold G7
  rw [dif_pos (by rw [hrun]; exact h15), hloc]
  exact key _ _ (by rw [hrun])

/-- The output array after the run is the specification's result. -/
theorem G7_eq (c : Dev nD) : (G7 m c : S8192x2048.Idx → EReal) = result (aX m c) (aG m c) (aB m c) (aW1 m c) (aB1 m c) (aW2 m c) (aB2 m c) := by
  funext i
  obtain ⟨r, e, rfl⟩ : ∃ (r : Fin 8192) (e : Fin 2048), i = ix2 r e := ⟨i 0, i 1, eq_ix2 i⟩
  obtain ⟨rb, hrb, p, rfl⟩ : ∃ (rb : ℕ) (hrb : rb < 16) (p : Fin 512), r = glob rb hrb p :=
    ⟨r.val / 512, by have := r.isLt; omega, ⟨r.val % 512, Nat.mod_lt _ (by decide)⟩,
      Fin.ext (by show r.val = 512 * (r.val / 512) + r.val % 512; omega)⟩
  exact G7_apply m c rb hrb p e

end Cert.KernelIdeal.Out

end
-- ==== Proof.RefValue.lean ====
/-
  The reference, entry by entry, is the specification's function of the argument arrays.

  The reference computes the row means and variances of the whole input, normalises it, multiplies by the whole first
  weight matrix and adds the bias, applies the activation, multiplies by the whole second weight matrix and adds the
  bias. Read at an entry, each of these is the specification's scalar function of that entry's row and column: the
  broadcasts read their operand at the row or at the column, the two sums along a row are sums over its 2048 entries
  starting from zero, and the two matrix products are sums over the contracted index. The activation forms the cube as
  (h · h) · h, the specification as h · (h · h): one commutation.
-/
import proofs.«137366_j79671643341681_1_alg».proof.Proof.Gen.ReferenceIdeal.Read
import proofs.«137366_j79671643341681_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Mlp

variable (x0 : (⟨S8192x2048, .f32⟩ : BufTy).Contents (Elt Ideal)) (x1 x2 : (⟨S2048, .f32⟩ : BufTy).Contents (Elt Ideal)) (x3 : (⟨S2048x8192, .f32⟩ : BufTy).Contents (Elt Ideal)) (x4 : (⟨S8192, .f32⟩ : BufTy).Contents (Elt Ideal))
  (x5 : (⟨S8192x2048, .f32⟩ : BufTy).Contents (Elt Ideal)) (x6 : (⟨S2048, .f32⟩ : BufTy).Contents (Elt Ideal))

/-- The mean column at row r is the mean of that row. -/
theorem mean_apply (r : Fin 8192) (u : Fin 1) :
    val_main_v3 (F := Ideal) x0 (ix2 r u) = rowMean (fun d => x0 (ix2 r d)) := by
  rw [val_main_v3_apply, val_main_v1_apply, val_main_v0_apply, val_main_cst_apply, val_main_v2_apply, val_main_cst_0_apply]
  simp only [Ideal.hostDivf_def, Ideal.ofBits_def, Ideal.ofBits_zero_f32, zero_add]
  unfold rowMean
  exact congrArg (Ideal.div · _) (Finset.sum_congr rfl fun k _ => congrArg x0 (funext fun a => Fin.ext (by match a with | ⟨0, _⟩ => rfl | ⟨1, _⟩ => rfl)))

/-- The variance column at row r is the variance of that row. -/
theorem var_apply (r : Fin 8192) (u : Fin 1) :
    val_main_v10 (F := Ideal) x0 (ix2 r u) = rowVar (fun d => x0 (ix2 r d)) := by
  rw [val_main_v10_apply, val_main_v8_apply, val_main_v7_apply, val_main_cst_1_apply, val_main_v9_apply, val_main_cst_2_apply]
  simp only [Ideal.hostDivf_def, Ideal.ofBits_def, Ideal.ofBits_zero_f32, zero_add]
  unfold rowVar
  refine congrArg (Ideal.div · _) (Finset.sum_congr rfl fun k _ => ?_)
  have hi : idx_main_v7 (idx_main_v8 (ix2 r u)) k = ix2 r k := funext fun a => Fin.ext (by match a with | ⟨0, _⟩ => rfl | ⟨1, _⟩ => rfl)
  have h4 : idx_main_v4 (ix2 r k) = ix2 r (0 : Fin 1) := funext fun a => Fin.ext (by match a with | ⟨0, _⟩ => rfl | ⟨1, _⟩ => rfl)
  rw [hi, val_main_v6_apply, val_main_v5_apply, val_main_v4_apply, h4, mean_apply]
  rfl

/-- The normalised input at (r, d). -/
theorem normed_apply (r : Fin 8192) (d : Fin 2048) :
    val_main_v23 (F := Ideal) x0 x1 x2 (ix2 r d)
      = normed (fun d => x0 (ix2 r d)) (fun d => x1 (ix1 d)) (fun d => x2 (ix1 d)) d := by
  have hg : idx_main_v18 (idx_main_v19 (ix2 r d)) = ix1 d := funext fun a => Fin.ext (by match a with | ⟨0, _⟩ => rfl)
  have hb : idx_main_v21 (idx_main_v22 (ix2 r d)) = ix1 d := funext fun a => Fin.ext (by match a with | ⟨0, _⟩ => rfl)
  have h11 : idx_main_v11 (ix2 r d) = ix2 r (0 : Fin 1) := funext fun a => Fin.ext (by match a with | ⟨0, _⟩ => rfl | ⟨1, _⟩ => rfl)
  have h16 : idx_main_v16 (ix2 r d) = ix2 r (0 : Fin 1) := funext fun a => Fin.ext (by match a with | ⟨0, _⟩ => rfl | ⟨1, _⟩ => rfl)
  rw [val_main_v23_apply, val_main_v20_apply, val_main_v17_apply, val_main_v12_apply, val_main_v11_apply, h11, mean_apply,
    val_main_v16_apply, h16, val_main_v15_apply, val_main_v14_apply, var_apply, val_main_v13_apply, val_main_cst_3_apply,
    val_main_v19_apply, val_main_v18_apply, val_main_v22_apply, val_main_v21_apply, hg, hb]
  rfl

/-- The hidden layer before the activation at (r, f). -/
theorem hidden_apply (r f : Fin 8192) :
    val_main_v27 (F := Ideal) x0 x1 x2 x3 x4 (ix2 r f)
      = hidden (fun d => x0 (ix2 r d)) (fun d => x1 (ix1 d)) (fun d => x2 (ix1 d)) (fun d => x3 (ix2 d f)) (x4 (ix1 f)) := by
  rw [val_main_v27_apply, val_main_v24_apply, val_main_v26_apply, val_main_v25_apply]
  unfold Cert.Mlp.hidden
  refine congrArg₂ (· + ·) (Finset.sum_congr rfl fun k _ => ?_) (congrArg x4 (funext fun a => Fin.ext (by match a with | ⟨0, _⟩ => rfl)))
  have hl : lidx_main_v24 (ix2 r f) k = ix2 r k := funext fun a => Fin.ext (by match a with | ⟨0, _⟩ => rfl | ⟨1, _⟩ => rfl)
  have hr : ridx_main_v24 (ix2 r f) k = ix2 k f := funext fun a => Fin.ext (by match a with | ⟨0, _⟩ => rfl | ⟨1, _⟩ => rfl)
  rw [hl, hr, normed_apply]

/-- The activation at any entry is the specification's, up to the grouping of the cube. -/
theorem gelu_apply (j : S8192x8192.Idx) :
    val_main_v40 (F := Ideal) x0 x1 x2 x3 x4 j = gelu (val_main_v27 (F := Ideal) x0 x1 x2 x3 x4 j) := by
  rw [val_main_v40_apply, val_main_v39_apply, val_main_v38_apply, val_main_cst_7_apply, val_main_v37_apply,
    val_main_v36_apply, val_main_cst_6_apply, val_main_v35_apply, val_main_v34_apply, val_main_v33_apply,
    val_main_cst_5_apply, val_main_v32_apply, val_main_v31_apply, val_main_v30_apply, val_main_cst_4_apply,
    val_main_v29_apply, val_main_v28_apply]
  generalize val_main_v27 (F := Ideal) x0 x1 x2 x3 x4 j = h
  show h * (Ideal.ofBits .f32 0x3F000000#32 * (Ideal.ofBits .f32 0x3F800000#32
    + Ideal.tanh (Ideal.ofBits .f32 0x3F4C422A#32 * (h + Ideal.ofBits .f32 0x3D372713#32 * (h * h * h))))) = gelu h
  rw [mul_comm (h * h) h]
  rfl

/-- The result at (r, e). -/
theorem out_apply (r : Fin 8192) (e : Fin 2048) :
    val_main_v44 (F := Ideal) x0 x1 x2 x3 x4 x5 x6 (ix2 r e)
      = outEntry (fun d => x0 (ix2 r d)) (fun d => x1 (ix1 d)) (fun d => x2 (ix1 d)) (fun d f => x3 (ix2 d f))
          (fun f => x4 (ix1 f)) (fun f => x5 (ix2 f e)) (x6 (ix1 e)) := by
  rw [val_main_v44_apply, val_main_v41_apply, val_main_v43_apply, val_main_v42_apply]
  unfold outEntry
  refine congrArg₂ (· + ·) (Finset.sum_congr rfl fun k _ => ?_) (congrArg x6 (funext fun a => Fin.ext (by match a with | ⟨0, _⟩ => rfl)))
  have hl : lidx_main_v41 (ix2 r e) k = ix2 r k := funext fun a => Fin.ext (by match a with | ⟨0, _⟩ => rfl | ⟨1, _⟩ => rfl)
  have hr : ridx_main_v41 (ix2 r e) k = ix2 k e := funext fun a => Fin.ext (by match a with | ⟨0, _⟩ => rfl | ⟨1, _⟩ => rfl)
  rw [hl, hr, gelu_apply, hidden_apply]

/-- The reference's result array is the specification's result. -/
theorem ref_eq : val_main_v44 (F := Ideal) x0 x1 x2 x3 x4 x5 x6 = result x0 x1 x2 x3 x4 x5 x6 := by
  funext i
  obtain ⟨r, e, rfl⟩ : ∃ (r : Fin 8192) (e : Fin 2048), i = ix2 r e := ⟨i 0, i 1, eq_ix2 i⟩
  exact out_apply x0 x1 x2 x3 x4 x5 x6 r e

end Cert.ReferenceIdeal.RefValue

end
-- ==== Proof.lean ====
/-
  A fused layer-normalisation, two-layer perceptron with tanh-GELU, against its plain reference.

  Both programs compute, for every row r of the input and every output column e,

      out(r, e) = Σ over the 8192 hidden units f of  gelu(hidden(r, f)) · W2(f, e)  +  b2(e),
      hidden(r, f) = Σ over the 2048 entries d of  normed(r, d) · W1(d, f)  +  b1(f),
      normed(r, d) = (x(r, d) − mean(r)) · rsqrt(var(r) + ε) · γ(d) + β(d),

  with the same constants and the same operations on the extended reals. The reference takes the sum over hidden units
  in one matrix product. The kernel works on blocks of 512 rows, and for each takes sixteen steps over blocks of 512
  hidden units: it recomputes the block's normalised rows and hidden units, and adds the block's partial sum to an
  output buffer that starts at zero and receives the bias at the last step. Zero plus sixteen consecutive partial sums
  of 512 terms is the sum of all 8192 terms, by associativity of addition, which holds on the extended reals with no
  finiteness needed; the only other difference is the grouping of the cube inside the activation, one commutation.
  Changes of float format are the identity on the extended reals, so the kernel's narrowed operands change nothing.

  The kernel's idealization rewrote no operation, so that claim is trivial. The three frame claims are the programs'
  runs with the results dropped.
-/
import proofs.«137366_j79671643341681_1_alg».proof.Defs
import proofs.«137366_j79671643341681_1_alg».proof.Proof.Gen.Kernel.Frame
import proofs.«137366_j79671643341681_1_alg».proof.Proof.Gen.KernelIdeal.Value
import proofs.«137366_j79671643341681_1_alg».proof.Proof.Gen.Pre_finite_inputs
import proofs.«137366_j79671643341681_1_alg».proof.Proof.Gen.ReferenceIdeal.Run
import proofs.«137366_j79671643341681_1_alg».proof.Proof.KernelValue
import proofs.«137366_j79671643341681_1_alg».proof.Proof.RefValue
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the seven arguments, the kernel's output array and the reference's result are the same
    function of those arguments, entry by entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5, h6⟩ := hagree c
  rw [(h c).1, Cert.ReferenceIdeal.Read.val_main_v44_eq, Cert.ReferenceIdeal.RefValue.ref_eq, h0, h1, h2, h3, h4, h5, h6]
  exact (Cert.KernelIdeal.Out.G7_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
